-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S1x10000x128 .f32) (main_arg1 : FVec F S1x10000x10000 .f32) (main_arg2 : FVec F S128x128 .f32) (main_arg3 : FVec F S128 .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S1x10000x10000 .f32 := Host.absf main_arg1
  let main_cst_0 : FVec F S_ .f32 := constant S_ .f32 0x7F800000#32
  let main_v5 : FVec F S1x10000x10000 .f32 := broadcastInDim S1x10000x10000 ![] bcast_S_S1x10000x10000 main_cst_0
  let main_v6 : IVec S1x10000x10000 1 := cmpf .olt main_v4 main_v5
  let main_c_1 : IVec S_ 1 := constantI S_ 1 1#1
  let main_v7 : IVec S_ 1 := (fun x v => Host.reduce IntOp.andi x v reducesTo_S1x10000x10000_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S10000x128 : Shape := ⟨2, ![10000, 128]⟩
abbrev S10000x10000 : Shape := ⟨2, ![10000, 10000]⟩
abbrev S1x128 : Shape := ⟨2, ![1, 128]⟩
abbrev S400x10000 : Shape := ⟨2, ![400, 10000]⟩
abbrev S400x128 : Shape := ⟨2, ![400, 128]⟩

abbrev nBuf : Space → Nat
  | .hbm => 9
  | .vmem => 7
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x10000, .f32⟩
  | .hbm, ⟨6, _⟩ => ⟨S1x128, .f32⟩
  | .hbm, ⟨7, _⟩ => ⟨S10000x128, .f32⟩
  | .hbm, ⟨8, _⟩ => ⟨S1x10000x128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v5 : BitVec 32 := Scalar.muli arg0 c400_i32
  let v6 : Index := Scalar.indexCast v5
  let c0_3 : Index := 0#32
  ![v6.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x10000x128_S10000x128 : S1x10000x128.ShapeCasts S10000x128
  shapeCasts_S1x10000x10000_S10000x10000 : S1x10000x10000.ShapeCasts S10000x10000
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  h_S400x128 : 0 < S400x128.numel
  shapeCasts_S400x128_S400x128 : S400x128.ShapeCasts S400x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  shapeCasts_S10000x128_S1x10000x128 : S10000x128.ShapeCasts S1x10000x128
  dot_S400x10000_S10000x128_S400x128_1_0_0_1_n_n_wf : DotDims.WF S400x10000 S10000x128 S400x128 [1] [0] [0] [1] [] []
  dot_S400x128_S128x128_S400x128_1_1_0_0_n_n_wf : DotDims.WF S400x128 S128x128 S400x128 [1] [1] [0] [0] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_1_0_0_n_n : DotDims S400x128 S128x128 S400x128 where
  lhsContracting := [1]
  rhsContracting := [1]
  lhsNonContracting := [0]
  rhsNonContracting := [0]
  lhsBatch := []
  rhsBatch := []
  wf := dot_S400x128_S128x128_S400x128_1_1_0_0_n_n_wf

abbrev win0_0 : Pipeline.Window sig grid0 :=
  Pipeline.Window.ofSpec (Memref.whole main_v0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S1x1x128 : Shape := ⟨3, ![1, 1, 128]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S1x10000x128, .f32⟩
  | .hbm, ⟨5, _⟩ => ⟨S1x10000x128, .f32⟩
  | .hbm, ⟨6, _⟩ => ⟨S1x10000x128, .f32⟩
  | .hbm, ⟨7, _⟩ => ⟨S1x10000x128, .f32⟩
  | .hbm, ⟨8, _⟩ => ⟨S1x1x128, .f32⟩
  | .hbm, ⟨9, _⟩ => ⟨S1x10000x128, .f32⟩
  | .hbm, ⟨10, _⟩ => ⟨S1x10000x128, .f32⟩
  | .hbm, ⟨11, _⟩ => ⟨S_, .f32⟩
  | .hbm, ⟨12, _⟩ => ⟨S1x10000x128, .f32⟩
  | .hbm, ⟨13, _⟩ => ⟨S1x10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x10000x128_0_1_2 : S1x1x128.BroadcastsInDim S1x10000x128 (![0, 1, 2] : Fin 3 → Fin S1x10000x128.rank)
  bcast_S_S1x10000x128 : S_.BroadcastsInDim S1x10000x128 (![] : Fin 0 → Fin S1x10000x128.rank)
  dot_S1x10000x128_S128x128_S1x10000x128_2_1_01_0_n_n_wf : DotDims.WF S1x10000x128 S128x128 S1x10000x128 [2] [1] [0, 1] [0] [] []
  dot_S1x10000x10000_S1x10000x128_S1x10000x128_2_1_1_2_0_0_wf : DotDims.WF S1x10000x10000 S1x10000x128 S1x10000x128 [2] [1] [1] [2] [0] [0]

variable [Facts₀]

def dot_S1x10000x128_S128x128_S1x10000x128_2_1_01_0_n_n : DotDims S1x10000x128 S128x128 S1x10000x128 where
  lhsContracting := [2]
  rhsContracting := [1]
  lhsNonContracting := [0, 1]
  rhsNonContracting := [0]
  lhsBatch := []
  rhsBatch := []
  wf := dot_S1x10000x128_S128x128_S1x10000x128_2_1_01_0_n_n_wf
def dot_S1x10000x10000_S1x10000x128_S1x10000x128_2_1_1_2_0_0 : DotDims S1x10000x10000 S1x10000x128 S1x10000x128 where
  lhsContracting := [2]
  rhsContracting := [1]
  lhsNonContracting := [1]
  rhsNonContracting := [2]
  lhsBatch := [0]
  rhsBatch := [0]
  wf := dot_S1x10000x10000_S1x10000x128_S1x10000x128_2_1_1_2_0_0_wf

class Facts : Prop extends Facts₀ where

variable [Facts]
-- ==== Proof.Stored.lean ====
/-
  What one grid step leaves in the output's staging buffer, as a value. The body loads its four input buffers
  whole, loads once more from the feature buffer the 400 rows that belong to the step's own row block (at row
  offset 400 · step), and ends with ONE store that covers the whole output block. So the buffer ends holding
  that store's value: the step's arithmetic applied to the buffers' contents and to the row-block slice of the
  features. Nothing here depends on how floats are read: it holds at any instance.
-/
import proofs.«173631_g66675072303728_cont_9to1_m_103_5_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Layer

open Cert.KernelIdeal Cert.KernelIdeal.Gen

variable {F : FTy → Type} [FloatOps F]

/-- The zero offsets of a whole-buffer access, as a constant function. -/
theorem zeroOffsets : (![0, 0] : Fin 2 → Nat) = fun _ => 0 := funext fun a => by fin_cases a <;> rfl

/-- The rows of the feature buffer `x` that belong to the step at grid coordinates `i`: 400 rows from row 400 · step. -/
abbrev ownRows (i : grid0.Coords) (x : Vec F S10000x128 .f32) : Vec F S400x128 .f32 :=
  View.ld x (Rect.unit (s := S10000x128) (k0_off1 i) S400x128.size (Facts₀.k0_off1_inb i))

/-- After the step at `i`, on any staging buffers holding features `x`, adjacency rows `a`, weight `w` and bias
    row `b`, the output's staging buffer holds the step's arithmetic of them. -/
theorem stored_eq (c : Dev nD) (i : grid0.Coords) (a1 : Memref sig .tc .vmem S10000x128 .f32) (h1 : a1.IsWhole)
    (a2 : Memref sig .tc .vmem S400x10000 .f32) (h2 : a2.IsWhole) (a3 : Memref sig .tc .vmem S128x128 .f32) (h3 : a3.IsWhole)
    (a4 : Memref sig .tc .vmem S1x128 .f32) (h4 : a4.IsWhole) (a5 : Memref sig .tc .vmem S400x128 .f32) (h5 : a5.IsWhole)
    (x : Vec F S10000x128 .f32) (a : Vec F S400x10000 .f32) (w : Vec F S128x128 .f32) (b : Vec F S1x128 .f32) :
    out0_A_4 c i a1 h1 a2 h2 a3 h3 a4 h4 a5 h5 x a w b = k0_pay1 a x (ownRows i x) w b := by
  unfold out0_A_4
  rw [View.read_writes_eq_canon _ _ _ (cover0_A_4 c i a1 h1 a2 h2 a3 h3 a4 h4 a5 h5 x a w b)]
  unfold kernelRun0_A
  dsimp only
  sl_unfold_words
  rw [View.canon_unit_zero zeroOffsets]
  simp only [View.readAt_eq_ld, h1.read_unread, h2.read_unread, h3.read_unread, h4.read_unread,
    View.ld_unit_zero (S := S400x10000) zeroOffsets, View.ld_unit_zero (S := S10000x128) zeroOffsets,
    View.ld_unit_zero (S := S128x128) zeroOffsets, View.ld_unit_zero (S := S1x128) zeroOffsets]
  rfl

end Cert.KernelIdeal.Layer

end
-- ==== Proof.Payload.lean ====
/-
  What one grid step stores, read at an index. At a row block of 400 nodes the body forms

      agg[r,d]  = Σ_j a[r,j] · x[j,d]          (the adjacency rows times ALL node features, into a zero accumulator)
      s[r,d]    = agg[r,d] + own[r,d]          (the block's own feature rows added)
      y[r,o]    = Σ_d s[r,d] · w[o,d]          (projected through W, contracting W's SECOND axis)
      out[r,o]  = max(y[r,o] + b[0,o], 0)      (the bias row broadcast down the block, then the rectifier)

  over the extended reals. The two products are sums over a one-axis contraction, re-indexed here by the axis's
  coordinate; the bias row's broadcast reads row 0; the zero the rectifier compares with is the real 0.
-/
import proofs.«173631_g66675072303728_cont_9to1_m_103_5_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Layer

open Cert.KernelIdeal Cert.KernelIdeal.Gen

/-! ## The aggregation product: rows of the adjacency block against columns of the features -/

theorem agg_lhs_0 (j : S400x128.Idx) (q : dot_S400x10000_S10000x128_S400x128_1_0_0_1_n_n.contr.Idx) :
    (dot_S400x10000_S10000x128_S400x128_1_0_0_1_n_n.lhsIdx j q 0).val = (j 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem agg_lhs_1 (j : S400x128.Idx) (q : dot_S400x10000_S10000x128_S400x128_1_0_0_1_n_n.contr.Idx) :
    (dot_S400x10000_S10000x128_S400x128_1_0_0_1_n_n.lhsIdx j q 1).val = (q ⟨0, by decide⟩).val :=
  dot_S400x10000_S10000x128_S400x128_1_0_0_1_n_n.lhsIdx_val_of_single rfl j q
theorem agg_rhs_0 (j : S400x128.Idx) (q : dot_S400x10000_S10000x128_S400x128_1_0_0_1_n_n.contr.Idx) :
    (dot_S400x10000_S10000x128_S400x128_1_0_0_1_n_n.rhsIdx j q 0).val = (q ⟨0, by decide⟩).val :=
  dot_S400x10000_S10000x128_S400x128_1_0_0_1_n_n.rhsIdx_val_of_single rfl j q
theorem agg_rhs_1 (j : S400x128.Idx) (q : dot_S400x10000_S10000x128_S400x128_1_0_0_1_n_n.contr.Idx) :
    (dot_S400x10000_S10000x128_S400x128_1_0_0_1_n_n.rhsIdx j q 1).val = (j 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Entry (r, d) of the aggregation product is Σ_j a[r,j] · x[j,d]. -/
theorem agg_apply (a : FVec Ideal S400x10000 .f32) (x : FVec Ideal S10000x128 .f32) (j : S400x128.Idx) :
    matmul dot_S400x10000_S10000x128_S400x128_1_0_0_1_n_n none a x (constant S400x128 .f32 0x00000000#32) j
      = ∑ k : Fin 10000, a (ix2 (j 0) k) * x (ix2 k (j 1)) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx j ((contrEquiv1 dot_S400x10000_S10000x128_S400x128_1_0_0_1_n_n 10000 rfl rfl).symm k) = ix2 (j 0) k := funext fun a => Fin.ext (by
    match a with
    | ⟨0, _⟩ => exact agg_lhs_0 _ _
    | ⟨1, _⟩ => exact (agg_lhs_1 _ _).trans hk)
  have er : dot_S400x10000_S10000x128_S400x128_1_0_0_1_n_n.rhsIdx j ((contrEquiv1 dot_S400x10000_S10000x128_S400x128_1_0_0_1_n_n 10000 rfl rfl).symm k) = ix2 k (j 1) := funext fun a => Fin.ext (by
    match a with
    | ⟨0, _⟩ => exact (agg_rhs_0 _ _).trans hk
    | ⟨1, _⟩ => exact agg_rhs_1 _ _)
  rw [el, er]
  rfl

/-! ## The projection: rows of the summed features against ROWS of W (W is stored output channel first) -/

theorem proj_lhs_0 (j : S400x128.Idx) (q : dot_S400x128_S128x128_S400x128_1_1_0_0_n_n.contr.Idx) :
    (dot_S400x128_S128x128_S400x128_1_1_0_0_n_n.lhsIdx j q 0).val = (j 0).val := by
  unfold DotDims.lhsIdx
  rw [dif_neg (show ¬(0 : Fin S400x128.rank) ∈ dot_S400x128_S128x128_S400x128_1_1_0_0_n_n.lhsBatch by decide), dif_pos (show (0 : Fin S400x128.rank) ∈ dot_S400x128_S128x128_S400x128_1_1_0_0_n_n.lhsNonContracting by decide)]
  rfl
theorem proj_lhs_1 (j : S400x128.Idx) (q : dot_S400x128_S128x128_S400x128_1_1_0_0_n_n.contr.Idx) :
    (dot_S400x128_S128x128_S400x128_1_1_0_0_n_n.lhsIdx j q 1).val = (q ⟨0, by decide⟩).val :=
  dot_S400x128_S128x128_S400x128_1_1_0_0_n_n.lhsIdx_val_of_single rfl j q
theorem proj_rhs_0 (j : S400x128.Idx) (q : dot_S400x128_S128x128_S400x128_1_1_0_0_n_n.contr.Idx) :
    (dot_S400x128_S128x128_S400x128_1_1_0_0_n_n.rhsIdx j q 0).val = (j 1).val := by
  unfold DotDims.rhsIdx
  rw [dif_neg (show ¬(0 : Fin S128x128.rank) ∈ dot_S400x128_S128x128_S400x128_1_1_0_0_n_n.rhsBatch by decide), dif_pos (show (0 : Fin S128x128.rank) ∈ dot_S400x128_S128x128_S400x128_1_1_0_0_n_n.rhsNonContracting by decide)]
  rfl
theorem proj_rhs_1 (j : S400x128.Idx) (q : dot_S400x128_S128x128_S400x128_1_1_0_0_n_n.contr.Idx) :
    (dot_S400x128_S128x128_S400x128_1_1_0_0_n_n.rhsIdx j q 1).val = (q ⟨0, by decide⟩).val :=
  dot_S400x128_S128x128_S400x128_1_1_0_0_n_n.rhsIdx_val_of_single rfl j q

/-- Entry (r, o) of the projection is Σ_d s[r,d] · w[o,d]. -/
theorem proj_apply (s : FVec Ideal S400x128 .f32) (w : FVec Ideal S128x128 .f32) (j : S400x128.Idx) :
    matmul dot_S400x128_S128x128_S400x128_1_1_0_0_n_n none s w (constant S400x128 .f32 0x00000000#32) j
      = ∑ k : Fin 128, s (ix2 (j 0) k) * w (ix2 (j 1) k) := by
  simp only [matmul]
  rw [Ideal.matmul_constant_zero_apply, ← Equiv.sum_comp (contrEquiv1 dot_S400x128_S128x128_S400x128_1_1_0_0_n_n 128 rfl rfl).symm]
  refine Finset.sum_congr rfl fun k _ => ?_
  have hk := contrEquiv1_symm_val dot_S400x128_S128x128_S400x128_1_1_0_0_n_n 128 rfl rfl k
  have el : dot_S400x128_S128x128_S400x128_1_1_0_0_n_n.lhsIdx j ((contrEquiv1 dot_S400x128_S128x128_S400x128_1_1_0_0_n_n 128 rfl rfl).symm k) = ix2 (j 0) k := funext fun a => Fin.ext (by
    match a with
    | ⟨0, _⟩ => exact proj_lhs_0 _ _
    | ⟨1, _⟩ => exact (proj_lhs_1 _ _).trans hk)
  have er : dot_S400x128_S128x128_S400x128_1_1_0_0_n_n.rhsIdx j ((contrEquiv1 dot_S400x128_S128x128_S400x128_1_1_0_0_n_n 128 rfl rfl).symm k) = ix2 (j 1) k := funext fun a => Fin.ext (by
    match a with
    | ⟨0, _⟩ => exact proj_rhs_0 _ _
    | ⟨1, _⟩ => exact (proj_rhs_1 _ _).trans hk)
  rw [el, er]
  rfl

/-! ## The bias row broadcast down the block -/

/-- The [1,128] bias row broadcast to [400,128] reads row 0 at every row. -/
theorem biasRow_apply (b : FVec Ideal S1x128 .f32) (r : Fin 400) (o : Fin 128) :
    broadcastTo S400x128 b Facts₀.broadcasts_S1x128_S400x128 (ix2 r o) = b (ix2 (0 : Fin 1) o) :=
  broadcastTo_apply b _ (ix2 r o) (ix2 (0 : Fin 1) o) (fun a => match a with
    | ⟨0, _⟩ => by show (0 : Nat) = if (1 : Nat) = 1 then 0 else r.val; rw [if_pos rfl]
    | ⟨1, _⟩ => by show o.val = if (128 : Nat) = 1 then 0 else o.val; rw [if_neg (by decide)])

/-! ## The stored block at an index -/

/-- Row `r`, channel `o` of what a step stores, of the adjacency block `a`, all features `x`, the block's own
    feature rows `own`, the weight `w` and the bias row `b`. -/
theorem stored_apply (a : Vec Ideal S400x10000 .f32) (x : Vec Ideal S10000x128 .f32) (own : Vec Ideal S400x128 .f32)
    (w : Vec Ideal S128x128 .f32) (b : Vec Ideal S1x128 .f32) (r : Fin 400) (o : Fin 128) :
    k0_pay1 (F := Ideal) a x own w b (ix2 r o)
      = max (∑ d : Fin 128, ((∑ j : Fin 10000, a (ix2 r j) * x (ix2 j d)) + own (ix2 r d)) * w (ix2 o d)
          + b (ix2 (0 : Fin 1) o)) 0 := by
  unfold k0_pay1
  simp only [shapeCast_self]
  rw [maximumf_apply, addf_apply, proj_apply, biasRow_apply, broadcast_apply]
  simp only [addf_apply, agg_apply]
  show max _ (Ideal.ofBits .f32 0x00000000#32) = _
  rw [Ideal.ofBits_zero_f32]

end Cert.KernelIdeal.Layer

end
-- ==== Proof.Blocks.lean ====
/-
  From the steps to the whole array. The grid has 25 steps; step t works on node rows 400·t … 400·t + 399. Its
  input blocks are: ALL node features and the whole weight and bias row (the same block at every step), and the
  400 adjacency rows of its own row block. What it writes back is rows 400·t … 400·t + 399 of the output. So the
  value a step stores at (r, o) is the layer's value at node 400·t + r, channel o, a function of the arrays as
  the region finds them; the 25 row blocks tile the 10000 rows, hence the output array ends holding that
  function everywhere.
-/
import proofs.«173631_g66675072303728_cont_9to1_m_103_5_alg».proof.Proof.Stored
import proofs.«173631_g66675072303728_cont_9to1_m_103_5_alg».proof.Proof.Payload

noncomputable section

open Idealize.ShloMosaic Idealize.ShloMosaic.TcCoe Idealize.SL.Sem Idealize.ShloMosaic.ValueIdx
open Idealize.ShloMosaic.Pipeline (Dat)

namespace Cert.KernelIdeal.Layer

open Cert.KernelIdeal Cert.KernelIdeal.Gen

variable (m : (ℓ : Loc nD τ sig) → Buf (Elt Ideal) ℓ) (ρ : Dev nD → PrngReg)

/-! ## The arrays the region finds, and a step's blocks of them -/

/-- The four arrays the region reads, as it finds them: node features [10000,128], adjacency [10000,10000],
    weight [128,128], bias row [1,128]. -/
abbrev featArr (c : Dev nD) : Vec Ideal S10000x128 .f32 := V m c main_v0
abbrev adjArr (c : Dev nD) : Vec Ideal S10000x10000 .f32 := V m c main_v1
abbrev weightArr (c : Dev nD) : Vec Ideal S128x128 .f32 := V m c main_arg2
abbrev biasArr (c : Dev nD) : Vec Ideal S1x128 .f32 := V m c main_v2

/-- Their blocks at step `t`. -/
abbrev featBlk (c : Dev nD) (t : Fin cfg0.N) : Vec Ideal S10000x128 .f32 := iblk m c 0 t
abbrev adjBlk (c : Dev nD) (t : Fin cfg0.N) : Vec Ideal S400x10000 .f32 := iblk m c 1 t
abbrev weightBlk (c : Dev nD) (t : Fin cfg0.N) : Vec Ideal S128x128 .f32 := iblk m c 2 t
abbrev biasBlk (c : Dev nD) (t : Fin cfg0.N) : Vec Ideal S1x128 .f32 := iblk m c 3 t

/-- Where each window's block sits at step `t`, decided over the 25 steps: the features, the weight and the bias
    row never move; the adjacency and the output move down one row block per step; the step's grid coordinate is
    its number. -/
theorem blockIndex : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ ((grid0.coords t) 0).val = t.val :=
  (by decide +kernel : ∀ t : Fin grid0.N, _)

/-- Node row 400·t + r: row `r` of step `t`'s row block. -/
abbrev rowOf (t : Fin cfg0.N) (r : Fin 400) : Fin 10000 :=
  ⟨400 * t.val + r.val, by have h : t.val < 25 := lt_of_lt_of_eq t.isLt N_0; have := r.isLt; omega⟩

theorem featBlk_apply (c : Dev nD) (t : Fin cfg0.N) (n : Fin 10000) (d : Fin 128) :
    featBlk m c t (ix2 n d) = featArr m c (ix2 n d) := by
  obtain ⟨e0, e1, -⟩ := blockIndex t
  show V m c main_v0 (((cfg0.win 0).blk t).view.emb (ix2 n d)) = V m c main_v0 (ix2 n d)
  congr 1
  funext a; apply Fin.ext
  match a with
  | ⟨0, _⟩ => show win0_0.index t (0 : Fin 2) * 10000 + 1 * n.val = n.val; omega
  | ⟨1, _⟩ => show win0_0.index t (1 : Fin 2) * 128 + 1 * d.val = d.val; omega

theorem adjBlk_apply (c : Dev nD) (t : Fin cfg0.N) (r : Fin 400) (j : Fin 10000) :
    adjBlk m c t (ix2 r j) = adjArr m c (ix2 (rowOf t r) j) := by
  obtain ⟨-, -, e0, e1, -⟩ := blockIndex t
  show V m c main_v1 (((cfg0.win 1).blk t).view.emb (ix2 r j)) = V m c main_v1 (ix2 (rowOf t r) j)
  congr 1
  funext a; apply Fin.ext
  match a with
  | ⟨0, _⟩ => show win0_1.index t (0 : Fin 2) * 400 + 1 * r.val = 400 * t.val + r.val; omega
  | ⟨1, _⟩ => show win0_1.index t (1 : Fin 2) * 10000 + 1 * j.val = j.val; omega

theorem weightBlk_apply (c : Dev nD) (t : Fin cfg0.N) (o : Fin 128) (d : Fin 128) :
    weightBlk m c t (ix2 o d) = weightArr m c (ix2 o d) := by
  obtain ⟨-, -, -, -, e0, e1, -⟩ := blockIndex t
  show V m c main_arg2 (((cfg0.win 2).blk t).view.emb (ix2 o d)) = V m c main_arg2 (ix2 o d)
  congr 1
  funext a; apply Fin.ext
  match a with
  | ⟨0, _⟩ => show win0_2.index t (0 : Fin 2) * 128 + 1 * o.val = o.val; omega
  | ⟨1, _⟩ => show win0_2.index t (1 : Fin 2) * 128 + 1 * d.val = d.val; omega

theorem biasBlk_apply (c : Dev nD) (t : Fin cfg0.N) (z : Fin 1) (o : Fin 128) :
    biasBlk m c t (ix2 z o) = biasArr m c (ix2 z o) := by
  obtain ⟨-, -, -, -, -, -, e0, e1, -⟩ := blockIndex t
  show V m c main_v2 (((cfg0.win 3).blk t).view.emb (ix2 z o)) = V m c main_v2 (ix2 z o)
  congr 1
  funext a; apply Fin.ext
  match a with
  | ⟨0, _⟩ => show win0_3.index t (0 : Fin 2) * 1 + 1 * z.val = z.val; omega
  | ⟨1, _⟩ => show win0_3.index t (1 : Fin 2) * 128 + 1 * o.val = o.val; omega

/-- The step's own feature rows, read out of the (whole) feature block at row offset 400 · step. -/
theorem ownRows_apply (c : Dev nD) (t : Fin cfg0.N) (r : Fin 400) (d : Fin 128) :
    ownRows (grid0.coords t) (featBlk m c t) (ix2 r d) = featArr m c (ix2 (rowOf t r) d) := by
  obtain ⟨-, -, -, -, -, -, -, -, -, -, eg⟩ := blockIndex t
  have e : (Rect.unit (s := S10000x128) (k0_off1 (grid0.coords t)) S400x128.size (Facts₀.k0_off1_inb (grid0.coords t))).emb (ix2 r d)
      = ix2 (rowOf t r) d := by
    funext a; apply Fin.ext
    match a with
    | ⟨0, _⟩ =>
      show k0_off1 (grid0.coords t) 0 + 1 * r.val = 400 * t.val + r.val
      rw [k0_off1_eq]
      show 400 * ((grid0.coords t) 0).val + 1 * r.val = 400 * t.val + r.val
      omega
    | ⟨1, _⟩ =>
      show k0_off1 (grid0.coords t) 1 + 1 * d.val = d.val
      rw [k0_off1_eq]
      show 0 + 1 * d.val = d.val
      omega
  show featBlk m c t ((Rect.unit (s := S10000x128) (k0_off1 (grid0.coords t)) S400x128.size (Facts₀.k0_off1_inb (grid0.coords t))).emb (ix2 r d)) = _
  rw [e, featBlk_apply]

/-! ## The layer on the two-dimensional arrays -/

/-- The layer's value at node row `y 0`, channel `y 1`, of features `x`, adjacency `A`, weight `w`, bias row `b`. -/
def rowsOut (x : Vec Ideal S10000x128 .f32) (A : Vec Ideal S10000x10000 .f32) (w : Vec Ideal S128x128 .f32)
    (b : Vec Ideal S1x128 .f32) : Vec Ideal S10000x128 .f32 := fun y =>
  max (∑ d : Fin 128, ((∑ j : Fin 10000, A (ix2 (y 0) j) * x (ix2 j d)) + x (ix2 (y 0) d)) * w (ix2 (y 1) d)
    + b (ix2 (0 : Fin 1) (y 1))) 0

/-- What step `t` leaves in the output's staging buffer at (r, o) is the layer's value at node 400·t + r. -/
theorem step_apply (c : Dev nD) (t : Fin cfg0.N) (r : Fin 400) (o : Fin 128) :
    outsAt0 m c t (ix2 r o)
      = rowsOut (featArr m c) (adjArr m c) (weightArr m c) (biasArr m c) (ix2 (rowOf t r) o) := by
  unfold outsAt0
  refine (congrFun (stored_eq (F := Ideal) c (grid0.coords t) (ms0_0 t) (hs0_0 t) (ms0_1 t) (hs0_1 t) (ms0_2 t) (hs0_2 t)
    (ms0_3 t) (hs0_3 t) (ms0_4 t) (hs0_4 t) (featBlk m c t) (adjBlk m c t) (weightBlk m c t) (biasBlk m c t)) (ix2 r o)).trans ?_
  refine (stored_apply (adjBlk m c t) (featBlk m c t) (ownRows (grid0.coords t) (featBlk m c t)) (weightBlk m c t)
    (biasBlk m c t) r o).trans ?_
  unfold rowsOut
  simp only [featBlk_apply, adjBlk_apply, weightBlk_apply, biasBlk_apply, ownRows_apply]

/-! ## What a step writes back, the cover, and the array after the run -/

/-- Step `t` writes back rows 400·t … 400·t + 399 of the layer's value. -/
theorem flushed_eq (c : Dev nD) (t : Fin cfg0.N) :
    (dats m 0 c).flushed 4 t
      = ((cfg0.win 4).blk t).view.read (Elt Ideal) (rowsOut (featArr m c) (adjArr m c) (weightArr m c) (biasArr m c)) := by
  show (cfg0.win 4).cut (grid0.coords t) ((dats m 0 c).after 4 t) = _
  rw [after0_4]
  obtain ⟨-, -, -, -, -, -, -, -, e0, e1, -⟩ := blockIndex t
  funext y
  obtain ⟨r, o, rfl⟩ : ∃ (r : Fin 400) (o : Fin 128), y = ix2 r o := ⟨y 0, y 1, eq_ix2 y⟩
  show outsAt0 m c t (ix2 r o)
    = rowsOut (featArr m c) (adjArr m c) (weightArr m c) (biasArr m c) (((cfg0.win 4).blk t).view.emb (ix2 r o))
  rw [step_apply]
  congr 1
  funext a; apply Fin.ext
  match a with
  | ⟨0, _⟩ => show 400 * t.val + r.val = win0_4.index t (0 : Fin 2) * 400 + 1 * r.val; omega
  | ⟨1, _⟩ => show o.val = win0_4.index t (1 : Fin 2) * 128 + 1 * o.val; omega

/-- An index of the output array is in step `t`'s block iff each coordinate is in the block's range. -/
theorem mem_rowBlock (t : Fin cfg0.N) (i : S10000x128.Idx) :
    i ∈ ((cfg0.win 4).blk t).view.set ↔ ∀ a : Fin 2, win0_4.index t a * S400x128.size a ≤ (i a).val
      ∧ (i a).val < win0_4.index t a * S400x128.size a + S400x128.size a := by
  show i ∈ ((View.whole main_v3).slice (win0_4.rect t)).set ↔ _
  rw [View.set_slice_whole, Rect.mem_set_unit]
  exact Iff.rfl

/-- Every output index is written back by the step that owns its row: step ⌊row / 400⌋. -/
theorem covered (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 25 := N_0
  have hlt : (i 0).val / 400 < cfg0.N := by rw [hN]; omega
  refine ⟨⟨(i 0).val / 400, hlt⟩, flush0_4 _, ?_⟩
  rw [mem_rowBlock]
  obtain ⟨-, -, -, -, -, -, -, -, e0, e1, -⟩ := blockIndex ⟨(i 0).val / 400, hlt⟩
  have e0' : win0_4.index ⟨(i 0).val / 400, hlt⟩ (0 : Fin 2) = (i 0).val / 400 := e0
  intro a
  match a with
  | ⟨0, _⟩ =>
    show win0_4.index ⟨(i 0).val / 400, hlt⟩ (0 : Fin 2) * 400 ≤ (i 0).val
      ∧ (i 0).val < win0_4.index ⟨(i 0).val / 400, hlt⟩ (0 : Fin 2) * 400 + 400
    omega
  | ⟨1, _⟩ =>
    show win0_4.index ⟨(i 0).val / 400, hlt⟩ (1 : Fin 2) * 128 ≤ (i 1).val
      ∧ (i 1).val < win0_4.index ⟨(i 0).val / 400, hlt⟩ (1 : Fin 2) * 128 + 128
    omega

/-- The output array after the run holds the layer's value of the arrays the region found. -/
theorem outArr_eq (c : Dev nD) :
    (dats m 0 c).arrAt 4 cfg0.N = rowsOut (featArr m c) (adjArr m c) (weightArr m c) (biasArr m c) :=
  (dats m 0 c).arrAt_eq_of_cover 4 _ (fun t _ => flushed_eq m c t) (covered)

end Cert.KernelIdeal.Layer

end
-- ==== Proof.Spec.lean ====
/-
  One graph-convolution layer with a residual connection, as a function of its four inputs, index by index
  over the extended reals:

      out[n, o] = max( Σ_d (x[n,d] + Σ_j adj[n,j] · x[j,d]) · W[o,d] + bias[o], 0 ).

  Two arrangements of the same sum appear. The FUSED one adds the aggregated neighbour features to the node's
  own features first and projects the sum through W once; the SPLIT one projects the node's own features and
  the aggregated ones separately and adds the two projections. Projection is linear, so the two agree wherever
  the products distribute over the sum — which on the extended reals needs every entry to be a real number
  (at an infinity (a + b) · c and a · c + b · c may differ). That is the one place the inputs' finiteness is used.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.GraphConv

/-- The node features x : [1, 10000, 128], the dense adjacency [1, 10000, 10000], the weight W : [128, 128]
    (output channel first) and the bias [128]. -/
abbrev SFeat : Shape := ⟨3, ![1, 10000, 128]⟩
abbrev SAdj : Shape := ⟨3, ![1, 10000, 10000]⟩
abbrev SWeight : Shape := ⟨2, ![128, 128]⟩
abbrev SBias : Shape := ⟨1, ![128]⟩

/-- Node `n`'s aggregated neighbour feature `d`: Σ_j adj[n,j] · x[j,d]. -/
def gathered (feat : SFeat.Idx → EReal) (adj : SAdj.Idx → EReal) (n : Fin 10000) (d : Fin 128) : EReal :=
  ∑ j : Fin 10000, adj (ix3 (0 : Fin 1) n j) * feat (ix3 (0 : Fin 1) j d)

/-- A feature row projected through W onto output channel `o`: Σ_d v[d] · W[o,d]. -/
def project (W : SWeight.Idx → EReal) (v : Fin 128 → EReal) (o : Fin 128) : EReal :=
  ∑ d : Fin 128, v d * W (ix2 o d)

/-- The layer with the residual added BEFORE the projection. -/
def layerFused (feat : SFeat.Idx → EReal) (adj : SAdj.Idx → EReal) (W : SWeight.Idx → EReal) (bias : SBias.Idx → EReal) :
    SFeat.Idx → EReal := fun i =>
  max (project W (fun d => gathered feat adj (i 1) d + feat (ix3 (0 : Fin 1) (i 1) d)) (i 2) + bias (ix1 (i 2))) 0

/-- The layer with the two projections taken separately and then added. -/
def layerSplit (feat : SFeat.Idx → EReal) (adj : SAdj.Idx → EReal) (W : SWeight.Idx → EReal) (bias : SBias.Idx → EReal) :
    SFeat.Idx → EReal := fun i =>
  max ((project W (fun d => feat (ix3 (0 : Fin 1) (i 1) d)) (i 2) + project W (gathered feat adj (i 1)) (i 2))
    + bias (ix1 (i 2))) 0

/-- A finite sum of real numbers, taken in the extended reals, is a real number. -/
theorem sum_real {ι : Type} (s : Finset ι) (f : ι → EReal) (h : ∀ k ∈ s, ∃ r : ℝ, f k = (r : EReal)) :
    ∃ r : ℝ, ∑ k ∈ s, f k = (r : EReal) := by
  classical
  induction s using Finset.induction_on with
  | empty => exact ⟨0, by simp⟩
  | insert a s ha ih =>
    obtain ⟨r, hr⟩ := ih fun k hk => h k (Finset.mem_insert_of_mem hk)
    obtain ⟨q, hq⟩ := h a (Finset.mem_insert_self a s)
    exact ⟨q + r, by rw [Finset.sum_insert ha, hr, hq, EReal.coe_add]⟩

/-- The aggregate of real features over a real adjacency is real. -/
theorem gathered_real {feat : SFeat.Idx → EReal} {adj : SAdj.Idx → EReal}
    (hf : ∀ i, ∃ r : ℝ, feat i = (r : EReal)) (ha : ∀ i, ∃ r : ℝ, adj i = (r : EReal)) (n : Fin 10000) (d : Fin 128) :
    ∃ r : ℝ, gathered feat adj n d = (r : EReal) := by
  unfold gathered
  refine sum_real _ _ fun j _ => ?_
  obtain ⟨a, ha'⟩ := ha (ix3 (0 : Fin 1) n j)
  obtain ⟨b, hb'⟩ := hf (ix3 (0 : Fin 1) j d)
  exact ⟨a * b, by rw [ha', hb', EReal.coe_mul]⟩

/-- Projection is additive on real rows through a real weight: Σ_d (u[d] + v[d]) · W[o,d] splits. -/
theorem project_add {W : SWeight.Idx → EReal} (hW : ∀ i, ∃ r : ℝ, W i = (r : EReal)) (u v : Fin 128 → EReal)
    (hu : ∀ d, ∃ r : ℝ, u d = (r : EReal)) (hv : ∀ d, ∃ r : ℝ, v d = (r : EReal)) (o : Fin 128) :
    project W (fun d => u d + v d) o = project W u o + project W v o := by
  unfold project
  rw [← Finset.sum_add_distrib]
  refine Finset.sum_congr rfl fun d _ => ?_
  obtain ⟨a, ha⟩ := hu d
  obtain ⟨b, hb⟩ := hv d
  obtain ⟨w, hw⟩ := hW (ix2 o d)
  show (u d + v d) * W (ix2 o d) = u d * W (ix2 o d) + v d * W (ix2 o d)
  rw [ha, hb, hw]
  exact_mod_cast add_mul a b w

/-- On real inputs the fused layer is the split layer. (The bias and the final maximum are the same on both sides
    and need nothing.) -/
theorem layerFused_eq_layerSplit {feat : SFeat.Idx → EReal} {adj : SAdj.Idx → EReal} {W : SWeight.Idx → EReal}
    (bias : SBias.Idx → EReal) (hf : ∀ i, ∃ r : ℝ, feat i = (r : EReal)) (ha : ∀ i, ∃ r : ℝ, adj i = (r : EReal))
    (hW : ∀ i, ∃ r : ℝ, W i = (r : EReal)) :
    layerFused feat adj W bias = layerSplit feat adj W bias := by
  funext i
  unfold layerFused layerSplit
  rw [project_add hW (gathered feat adj (i 1)) (fun d => feat (ix3 (0 : Fin 1) (i 1) d))
    (gathered_real hf ha (i 1)) (fun d => hf _) (i 2), add_comm (project W (gathered feat adj (i 1)) (i 2))]

end Cert.GraphConv

end
-- ==== Proof.Around.lean ====
/-
  The host operations around the region. Before it, three reshapes only drop or add unit axes: the features
  [1,10000,128] → [10000,128], the adjacency [1,10000,10000] → [10000,10000], the bias [128] → [1,128]; a reshape
  keeps the row-major position, so entry (n,d) of the two-dimensional features is entry (0,n,d) of the argument, and
  likewise for the others. After the region one reshape puts the unit batch axis back: entry (0,n,o) of the result
  is entry (n,o) of the output array. With the array's value from the steps this gives the program's result as the
  fused layer of its four arguments.
-/
import proofs.«173631_g66675072303728_cont_9to1_m_103_5_alg».proof.Proof.Blocks
import proofs.«173631_g66675072303728_cont_9to1_m_103_5_alg».proof.Proof.Spec
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Layer

open Cert.KernelIdeal Cert.KernelIdeal.Gen

variable (m : (ℓ : Loc nD τ sig) → Buf (Elt Ideal) ℓ) (ρ : Dev nD → PrngReg)

/-! ## The arrays the region finds, of the arguments -/

theorem featArr_eq (c : Dev nD) :
    featArr m c = shapeCast S10000x128 (m ((c : Thread nD τ).loc main_arg0)) Facts₀.shapeCasts_S1x10000x128_S10000x128 := by
  show StableHlo.after hostOps0 (fun b => m (c, b)) (Proc.devRef .tc main_v0) = _
  after_results
  rfl

theorem adjArr_eq (c : Dev nD) :
    adjArr m c = shapeCast S10000x10000 (m ((c : Thread nD τ).loc main_arg1)) Facts₀.shapeCasts_S1x10000x10000_S10000x10000 := by
  show StableHlo.after hostOps0 (fun b => m (c, b)) (Proc.devRef .tc main_v1) = _
  after_results
  rfl

theorem biasArr_eq (c : Dev nD) :
    biasArr m c = shapeCast S1x128 (m ((c : Thread nD τ).loc main_arg3)) Facts₀.shapeCasts_S128_S1x128 := by
  show StableHlo.after hostOps0 (fun b => m (c, b)) (Proc.devRef .tc main_v2) = _
  after_results
  rfl

/-- Entry (n, d) of the two-dimensional features is entry (0, n, d) of the argument. -/
theorem featArr_apply (c : Dev nD) (n : Fin 10000) (d : Fin 128) :
    featArr m c (ix2 n d) = m ((c : Thread nD τ).loc main_arg0) (ix3 (0 : Fin 1) n d) := by
  rw [featArr_eq]
  refine shapeCast_apply _ _ (ix2 n d) (ix3 (0 : Fin 1) n d) ?_
  rw [Shape.rowMajor_val_three, Shape.rowMajor_val_two]
  show ((0 : ℕ) * 10000 + n.val) * 128 + d.val = n.val * 128 + d.val
  omega

/-- Entry (n, j) of the two-dimensional adjacency is entry (0, n, j) of the argument. -/
theorem adjArr_apply (c : Dev nD) (n : Fin 10000) (j : Fin 10000) :
    adjArr m c (ix2 n j) = m ((c : Thread nD τ).loc main_arg1) (ix3 (0 : Fin 1) n j) := by
  rw [adjArr_eq]
  refine shapeCast_apply _ _ (ix2 n j) (ix3 (0 : Fin 1) n j) ?_
  rw [Shape.rowMajor_val_three, Shape.rowMajor_val_two]
  show ((0 : ℕ) * 10000 + n.val) * 10000 + j.val = n.val * 10000 + j.val
  omega

/-- Entry (0, o) of the bias row is entry o of the argument. -/
theorem biasArr_apply (c : Dev nD) (o : Fin 128) :
    biasArr m c (ix2 (0 : Fin 1) o) = m ((c : Thread nD τ).loc main_arg3) (ix1 o) := by
  rw [biasArr_eq]
  refine shapeCast_apply _ _ (ix2 (0 : Fin 1) o) (ix1 o) ?_
  rw [Shape.rowMajor_val_one, Shape.rowMajor_val_two]
  show o.val = (0 : ℕ) * 128 + o.val
  omega

/-- The weight reaches the region as launched. -/
theorem weightArr_eq (c : Dev nD) : weightArr m c = m ((c : Thread nD τ).loc main_arg2) := V_main_arg2 m c

/-- The same three facts for the arrays whole: each is the argument read with the unit axis at 0. -/
theorem featArr_fun (c : Dev nD) :
    featArr m c = fun y => m ((c : Thread nD τ).loc main_arg0) (ix3 (0 : Fin 1) (y 0) (y 1)) :=
  funext fun y => (congrArg (featArr m c) (eq_ix2 y)).trans (featArr_apply m c (y 0) (y 1))

theorem adjArr_fun (c : Dev nD) :
    adjArr m c = fun y => m ((c : Thread nD τ).loc main_arg1) (ix3 (0 : Fin 1) (y 0) (y 1)) :=
  funext fun y => (congrArg (adjArr m c) (eq_ix2 y)).trans (adjArr_apply m c (y 0) (y 1))

theorem biasArr_fun (c : Dev nD) :
    biasArr m c = fun y => m ((c : Thread nD τ).loc main_arg3) (ix1 (y 1)) :=
  funext fun y => by
    have hy : y = ix2 (0 : Fin 1) (y 1) := by
      refine (eq_ix2 y).trans ?_
      have h0 : y 0 = (0 : Fin 1) := Fin.ext (by have h : (y 0).val < 1 := (y 0).isLt; show (y 0).val = 0; omega)
      rw [h0]
      rfl
    exact (congrArg (biasArr m c) hy).trans (biasArr_apply m c (y 1))

/-! ## The result after the region's tail -/

/-- The program's result is the output array with the unit batch axis put back. -/
theorem result_eq (c : Dev nD) :
    Pipeline.afterTail₀ cfgs (dats m) 0 (V0 m) [hostOps1] c main_v4
      = shapeCast S1x10000x128 ((dats m 0 c).arrAt 4 cfg0.N) Facts₀.shapeCasts_S10000x128_S1x10000x128 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = (dats m 0 c).arrAt 4 cfg0.N :=
    Pipeline.withArrays_arr spec0 launch0.win.arr_inj c (V0 m c) (fun w => (dats m 0 c).arrAt w cfg0.N) 4
  rw [e]
  rfl

/-- Entry (0, n, o) of the program's result is the fused layer's value there, of the four arguments as launched. -/
theorem result_apply (c : Dev nD) (i : S1x10000x128.Idx) :
    Pipeline.afterTail₀ cfgs (dats m) 0 (V0 m) [hostOps1] c main_v4 i
      = Cert.GraphConv.layerFused (m ((c : Thread nD τ).loc main_arg0)) (m ((c : Thread nD τ).loc main_arg1))
          (m ((c : Thread nD τ).loc main_arg2)) (m ((c : Thread nD τ).loc main_arg3)) i := by
  rw [result_eq, outArr_eq, featArr_fun, adjArr_fun, biasArr_fun, weightArr_eq]
  have hi0 : (i 0).val = 0 := by have h : (i 0).val < 1 := (i 0).isLt; omega
  refine (shapeCast_apply _ _ i (ix2 (i 1) (i 2)) ?_).trans ?_
  · rw [Shape.rowMajor_val_two, Shape.rowMajor_val_three]
    show (i 1).val * 128 + (i 2).val = ((i 0).val * 10000 + (i 1).val) * 128 + (i 2).val
    rw [hi0]; omega
  · unfold rowsOut Cert.GraphConv.layerFused Cert.GraphConv.project Cert.GraphConv.gathered
    rfl

/-! ## The run, read -/

/-- Every weakly fair execution of the program ends with its result at the fused layer of the arguments, and the
    arguments as launched. -/
theorem run : θ_run defs (onTc (τ := τ) (main (F := Ideal))) ⟨m, fun _ => 0, ρ⟩ fun r => ∀ c : Dev nD,
      r.2.mem ((c.tc : Thread nD τ).loc main_v4)
        = Cert.GraphConv.layerFused (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (funext (result_apply m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Layer

end
-- ==== Proof.RefLayer.lean ====
/-
  The reference computes the split layer. Read one operation at a time its result at (b, n, o) is

      max( ( Σ_d x[b,n,d] · W[o,d]  +  Σ_d (Σ_j adj[b,n,j] · x[b,j,d]) · W[o,d] )  +  bias[o], 0 ):

  the first contraction projects the node's own features, the second the aggregated ones (the aggregation is a
  batched contraction over the neighbour axis), the bias is broadcast over batch and node, and the rectifier is a
  maximum with a broadcast zero. The batch axis has one entry, so b = 0.
-/
import proofs.«173631_g66675072303728_cont_9to1_m_103_5_alg».proof.Proof.Gen.ReferenceIdeal.Read
import proofs.«173631_g66675072303728_cont_9to1_m_103_5_alg».proof.Proof.Spec

noncomputable section

open Idealize.ShloMosaic Idealize.ShloMosaic.ValueIdx

namespace Cert.ReferenceIdeal.Layer

open Cert.ReferenceIdeal Cert.ReferenceIdeal.Read

/-- The one batch coordinate is 0. -/
theorem batch_val (b : Fin 1) : b.val = 0 := by have h : b.val < 1 := b.isLt; omega

/-! ## Where each contraction reads its operands, at batch b, node n, channel o -/

theorem ownLhs (b : Fin 1) (n : Fin 10000) (o : Fin 128) (k : Fin 128) :
    lidx_main_v0 (ix3 b n o) k = ix3 (0 : Fin 1) n k :=
  funext fun a => Fin.ext (by
    match a with
    | ⟨0, _⟩ => exact batch_val b
    | ⟨1, _⟩ => rfl
    | ⟨2, _⟩ => rfl)

theorem ownRhs (b : Fin 1) (n : Fin 10000) (o : Fin 128) (k : Fin 128) :
    ridx_main_v0 (ix3 b n o) k = ix2 o k :=
  funext fun a => Fin.ext (by
    match a with
    | ⟨0, _⟩ => rfl
    | ⟨1, _⟩ => rfl)

theorem aggProjLhs (b : Fin 1) (n : Fin 10000) (o : Fin 128) (k : Fin 128) :
    lidx_main_v2 (ix3 b n o) k = ix3 (0 : Fin 1) n k :=
  funext fun a => Fin.ext (by
    match a with
    | ⟨0, _⟩ => exact batch_val b
    | ⟨1, _⟩ => rfl
    | ⟨2, _⟩ => rfl)

theorem aggProjRhs (b : Fin 1) (n : Fin 10000) (o : Fin 128) (k : Fin 128) :
    ridx_main_v2 (ix3 b n o) k = ix2 o k :=
  funext fun a => Fin.ext (by
    match a with
    | ⟨0, _⟩ => rfl
    | ⟨1, _⟩ => rfl)

theorem aggLhs (n : Fin 10000) (d : Fin 128) (j : Fin 10000) :
    lidx_main_v1 (ix3 (0 : Fin 1) n d) j = ix3 (0 : Fin 1) n j :=
  funext fun a => Fin.ext (by
    match a with
    | ⟨0, _⟩ => rfl
    | ⟨1, _⟩ => rfl
    | ⟨2, _⟩ => rfl)

theorem aggRhs (n : Fin 10000) (d : Fin 128) (j : Fin 10000) :
    ridx_main_v1 (ix3 (0 : Fin 1) n d) j = ix3 (0 : Fin 1) j d :=
  funext fun a => Fin.ext (by
    match a with
    | ⟨0, _⟩ => rfl
    | ⟨1, _⟩ => rfl
    | ⟨2, _⟩ => rfl)

theorem biasIdx (b : Fin 1) (n : Fin 10000) (o : Fin 128) : idx_main_v4 (idx_main_v5 (ix3 b n o)) = ix1 o :=
  funext fun a => Fin.ext (by
    match a with
    | ⟨0, _⟩ => rfl)

/-! ## The reference's result is the split layer -/

/-- The aggregation stage at (0, n, d) is Σ_j adj[0,n,j] · x[0,j,d]. -/
theorem agg_apply (x : (⟨S1x10000x128, .f32⟩ : BufTy).Contents (Elt Ideal)) (adj : (⟨S1x10000x10000, .f32⟩ : BufTy).Contents (Elt Ideal))
    (n : Fin 10000) (d : Fin 128) :
    val_main_v1 (F := Ideal) x adj (ix3 (0 : Fin 1) n d) = Cert.GraphConv.gathered x adj n d := by
  rw [val_main_v1_apply]
  unfold Cert.GraphConv.gathered
  exact Finset.sum_congr rfl fun j _ => by rw [aggLhs, aggRhs]

theorem result_eq (x : (⟨S1x10000x128, .f32⟩ : BufTy).Contents (Elt Ideal)) (adj : (⟨S1x10000x10000, .f32⟩ : BufTy).Contents (Elt Ideal))
    (w : (⟨S128x128, .f32⟩ : BufTy).Contents (Elt Ideal)) (bias : (⟨S128, .f32⟩ : BufTy).Contents (Elt Ideal)) :
    val_main_v7 (F := Ideal) x adj w bias = Cert.GraphConv.layerSplit x adj w bias := by
  funext i
  obtain ⟨b, n, o, rfl⟩ : ∃ (b : Fin 1) (n : Fin 10000) (o : Fin 128), i = ix3 b n o := ⟨i 0, i 1, i 2, eq_ix3 i⟩
  rw [val_main_v7_apply, val_main_v6_apply, val_main_v3_apply, val_main_v0_apply, val_main_v2_apply, val_main_v5_apply,
    val_main_v4_apply, val_main_call0_v0_apply, val_main_call0_cst_apply, biasIdx]
  have own : ∑ k : Fin 128, x (lidx_main_v0 (ix3 b n o) k) * w (ridx_main_v0 (ix3 b n o) k)
      = Cert.GraphConv.project w (fun d => x (ix3 (0 : Fin 1) n d)) o := by
    unfold Cert.GraphConv.project
    exact Finset.sum_congr rfl fun k _ => by rw [ownLhs, ownRhs]
  have agg : ∑ k : Fin 128, val_main_v1 (F := Ideal) x adj (lidx_main_v2 (ix3 b n o) k) * w (ridx_main_v2 (ix3 b n o) k)
      = Cert.GraphConv.project w (Cert.GraphConv.gathered x adj n) o := by
    unfold Cert.GraphConv.project
    exact Finset.sum_congr rfl fun k _ => by rw [aggProjLhs, aggProjRhs, agg_apply]
  rw [own, agg]
  simp only [Ideal.maximumf_def, Ideal.addf_def, Ideal.ofBits_def, Ideal.ofBits_zero_f32]
  rfl

end Cert.ReferenceIdeal.Layer

end
-- ==== Proof.Finite.lean ====
/-
  What the precondition says. It is the conjunction of four statements "every entry of the array has absolute value
  below +∞", one per input. On the extended reals |x| = max(x, −x), and max(x, −x) < +∞ excludes x = +∞ and
  x = −∞ (where −x = +∞): so every entry of every input is a real number.
-/
import proofs.«173631_g66675072303728_cont_9to1_m_103_5_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

open Idealize.ShloMosaic

namespace Cert.Pre_finite_inputs.Decode

open Cert.Pre_finite_inputs

variable [Facts]

instance : Subsingleton S_.Idx := ⟨fun a b => funext fun d => d.elim0⟩

/-- The word 0x7F800000 denotes +∞. -/
theorem infWord : Ideal.ofBits .f32 0x7F800000#32 = (⊤ : EReal) := by simp [Ideal.ofBits, Ideal.ieee]

/-- An extended real whose absolute value is below +∞ is a real number. -/
theorem real_of_abs_lt_top {x : EReal} (h : max x (-x) < ⊤) : ∃ r : ℝ, x = (r : EReal) := by
  induction x using EReal.rec with
  | bot => simp at h
  | coe r => exact ⟨r, rfl⟩
  | top => simp at h

/-- One entry of one input: the comparison |x| < +∞ reading true there makes the entry real. -/
theorem entry_real {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ r : ℝ, x i = (r : EReal) := by
  rw [ValueIdx.cmpf_apply, broadcastInDim_apply _ hb _ i ValueIdx.ix0 (fun a => a.elim0)] at h
  have h' : Ideal.cmp .olt (max (x i) (-(x i))) (Ideal.ofBits .f32 0x7F800000#32) = 1#1 := h
  rw [infWord] at h'
  refine real_of_abs_lt_top ?_
  by_contra hn
  simp [Ideal.cmp, hn] at h'

/-- Under the precondition every entry of every input is a real number. -/
theorem inputs_real (a0 : FVec Ideal S1x10000x128 .f32) (a1 : FVec Ideal S1x10000x10000 .f32) (a2 : FVec Ideal S128x128 .f32)
    (a3 : FVec Ideal S128 .f32) (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => entry_real a0 _ i (Host.reduce_andi_all _ _ _ _ _ h0' i),
    fun i => entry_real a1 _ i (Host.reduce_andi_all _ _ _ _ _ h1 i),
    fun i => entry_real a2 _ i (Host.reduce_andi_all _ _ _ _ _ h2 i),
    fun i => entry_real a3 _ i (Host.reduce_andi_all _ _ _ _ _ h3 i)⟩

end Cert.Pre_finite_inputs.Decode

end
-- ==== Proof.lean ====
/-
  A graph-convolution layer with a residual connection over 10000 nodes with 128 features:

      out = relu( (x + adj · x) · Wᵀ + bias ).

  The kernel streams the dense adjacency in 25 row blocks of 400 nodes; for each block it forms adj_block · x, adds
  the block's own rows of x, projects the sum through W once, adds the bias and applies the rectifier. The reference
  projects x and adj · x through W separately, adds the two projections, then the bias and the rectifier.

  Over the extended reals both are sums of products, and the two arrangements differ by the distributive law
      Σ_d (a_d + x_d) · w_d = Σ_d x_d · w_d + Σ_d a_d · w_d,
  which holds when every factor is a real number and can fail at an infinity. The precondition says every entry of
  every input is finite, so the aggregated features adj · x are finite sums of finite products, and the law applies.
  Tiling and summation order play no part: every row of the output is computed by exactly one block, as the same
  function of the inputs.

  The three run claims: the kernel's two come with the programs; the reference is a straight line of host operations
  whose run gives each result as the operations' composed term. The idealization rewrote nothing.
-/
import proofs.«173631_g66675072303728_cont_9to1_m_103_5_alg».proof.Defs
import proofs.«173631_g66675072303728_cont_9to1_m_103_5_alg».proof.Proof.Gen.Kernel
import proofs.«173631_g66675072303728_cont_9to1_m_103_5_alg».proof.Proof.Gen.Kernel.Frame
import proofs.«173631_g66675072303728_cont_9to1_m_103_5_alg».proof.Proof.Gen.KernelIdeal
import proofs.«173631_g66675072303728_cont_9to1_m_103_5_alg».proof.Proof.Gen.KernelIdeal.Frame
import proofs.«173631_g66675072303728_cont_9to1_m_103_5_alg».proof.Proof.Gen.ReferenceIdeal
import proofs.«173631_g66675072303728_cont_9to1_m_103_5_alg».proof.Proof.Gen.Pre_finite_inputs
import proofs.«173631_g66675072303728_cont_9to1_m_103_5_alg».proof.Proof.Gen.ReferenceIdeal.Run
import proofs.«173631_g66675072303728_cont_9to1_m_103_5_alg».proof.Proof.Gen.ReferenceIdeal.Read
import proofs.«173631_g66675072303728_cont_9to1_m_103_5_alg».proof.Proof.Around
import proofs.«173631_g66675072303728_cont_9to1_m_103_5_alg».proof.Proof.RefLayer
import proofs.«173631_g66675072303728_cont_9to1_m_103_5_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped: the arguments end as launched. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel ends at the fused layer of its arguments, the reference at the split layer of arguments that agree;
    the arguments are real under the precondition, where the two layers are one function. -/
theorem algebraic : Cert.algebraic_KernelIdeal_ReferenceIdeal := by
  intro m ρ m' ρ' hpre hagree
  refine ⟨fun c => Cert.GraphConv.layerFused
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.Layer.result_eq, (hagree c).1, (hagree c).2.1,
    (hagree c).2.2.1, (hagree c).2.2.2]
  obtain ⟨hf, ha, hw, -⟩ := Cert.Pre_finite_inputs.Decode.inputs_real _ _ _ _ (hpre c)
  exact (Cert.GraphConv.layerFused_eq_layerSplit _ hf ha hw).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
